-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S64x4096 .f32) (main_arg1 : FVec F S4096x4096 .f32) (main_arg2 : IVec S4096x4096 1) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S64x4096 : Shape := ⟨2, ![64, 4096]⟩
abbrev S4096x4096 : Shape := ⟨2, ![4096, 4096]⟩
abbrev S512x4096 : Shape := ⟨2, ![512, 4096]⟩
abbrev S64x512 : Shape := ⟨2, ![64, 512]⟩

abbrev nBuf : Space → Nat
  | .hbm => 5
  | .vmem => 7
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .i1⟩
  | .hbm, ⟨3, _⟩ => ⟨S4096x4096, .i32⟩
  | .hbm, ⟨4, _⟩ => ⟨S64x4096, .f32⟩
  | .local _ .vmem, ⟨0, _⟩ => ⟨S64x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .i32⟩
  | .local _ .vmem, ⟨4, _⟩ => ⟨S512x4096, .i32⟩
  | .local _ .vmem, ⟨5, _⟩ => ⟨S64x512, .f32⟩
  | .local _ .vmem, ⟨6, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  natLt_1_32 : 1 < 32
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  inb_S64x512_S64x512_0_0 : ∀ a, (![0, 0] : Fin 2 → Nat) a + S64x512.size a ≤ S64x512.size a
  h_S64x512 : 0 < S64x512.numel
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .i32 = 32 ∨ (Rect.block (s := S4096x4096) S512x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x4096.size a
  hwx0_3 : ∀ i : grid0.Coords, EltTy.bits .f32 = 32 ∨ (Rect.block (s := S64x4096) S64x512.size (cc0_transform_3 i) (hinb0_3 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x4096 : Shape := ⟨2, ![4096, 4096]⟩
abbrev S4096x64 : Shape := ⟨2, ![4096, 64]⟩

abbrev nBuf : Space → Nat
  | .hbm => 8
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4096x64, .f32⟩
  | .hbm, ⟨6, _⟩ => ⟨S4096x64, .f32⟩
  | .hbm, ⟨7, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  transposes_S4096x64_S64x4096_1_0 : S4096x64.Transposes [1, 0] S64x4096
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.MaskedLinear.lean ====
/-
  The masked linear layer, as one function of its three arrays.

  For an input `x` of 64 rows and 4096 columns, a weight `w` of 4096 rows (one per output feature) and 4096 columns,
  and a one-bit mask of the weight's shape, the layer's entry in row `b` and column `o` is

      Σ_j (w[o, j] · keep(mask[o, j])) · x[b, j],      keep(bit) = 0 or 1, the bit read as a natural number.

  Both programs compute this sum. They differ in two ways only. The reference multiplies the masked weight on the
  left of `x`, the kernel on the right: the extended reals' product is commutative, at infinities too, so each term
  is the same number. And they reach `keep` by different conversions: the reference reads the bit as an unsigned
  number; the kernel first widens the bit to a 32-bit word, tests that word against zero, widens the test's bit again
  and reads it as a signed number. On the two possible bits both give 0 and 1 (`keep_of_test`).
-/
import Idealize.ShloMosaic.PureOps.Ideal.Laws
import Idealize.ShloMosaic.Lib.ValueIdx

noncomputable section

namespace Cert.MaskedLinear

open Idealize.ShloMosaic Idealize.ShloMosaic.ValueIdx

/-- A mask bit as the extended real 0 or 1. -/
def keep (b : BitVec 1) : EReal := ((b.toNat : ℝ) : EReal)

/-- The layer: entry `(b, o)` is the sum over `j` of the masked weight `w[o, j] · keep(mask[o, j])` times `x[b, j]`. -/
def layer (x : (⟨2, ![64, 4096]⟩ : Shape).Idx → EReal) (w : (⟨2, ![4096, 4096]⟩ : Shape).Idx → EReal)
    (mask : (⟨2, ![4096, 4096]⟩ : Shape).Idx → BitVec 1) : (⟨2, ![64, 4096]⟩ : Shape).Idx → EReal :=
  fun i => ∑ j : Fin 4096, (w (ix2 (i 1) j) * keep (mask (ix2 (i 1) j))) * x (ix2 (i 0) j)

/-- The two bits, through the kernel's conversions: widened to 32 bits, tested against zero, the test widened to 32
    bits and read signed, the bit `0` gives 0 and the bit `1` gives 1 — the bit's own value. -/
theorem test_toInt : ∀ b : BitVec 1, ((IntOp.cmpi .ne (b.setWidth 32) 0#32).setWidth 32).toInt = (b.toNat : ℤ) := by
  decide

/-- So the kernel's 0/1 factor is `keep` of the bit. -/
theorem keep_of_test (b : BitVec 1) :
    ((((IntOp.cmpi .ne (b.setWidth 32) 0#32).setWidth 32).toInt : ℝ) : EReal) = keep b := by
  unfold keep
  rw [test_toInt b]
  norm_cast

end Cert.MaskedLinear

end
-- ==== Proof.ReferenceValue.lean ====
/-
  The reference computes the masked linear layer.

  The reference masks the weight (`w · keep(mask)`, the bit read as an unsigned number), multiplies the masked weight by
  the transposed input — entry `(o, b)` is the sum over `j` of `(w[o, j] · keep(mask[o, j])) · x[b, j]` — and
  transposes the product. Read at entry `(b, o)` of the result, the two transpositions only swap the coordinates, so the
  entry is the layer's sum, term by term.
-/
import proofs.«130878_g76295799046852_cont_9to1_m_449_4_alg».proof.Proof.Gen.ReferenceIdeal.Read
import proofs.«130878_g76295799046852_cont_9to1_m_449_4_alg».proof.Proof.MaskedLinear

noncomputable section

namespace Cert.ReferenceIdeal.Layer

open Cert.ReferenceIdeal Cert.ReferenceIdeal.Read Idealize.ShloMosaic Idealize.ShloMosaic.ValueIdx Cert.MaskedLinear

/-- Entry `(b, o)` of the result reads the masked weight in row `o`, at the summation index. -/
theorem weight_index (i : S64x4096.Idx) (j : Fin 4096) : lidx_main_v3 (idx_main_v4 i) j = ix2 (i 1) j :=
  funext fun a => Fin.ext (by match a with | ⟨0, _⟩ => rfl | ⟨1, _⟩ => rfl)

/-- Entry `(b, o)` of the result reads the input in row `b`, at the summation index: the transposed input read at
    `(j, b)` is the input at `(b, j)`. -/
theorem input_index (i : S64x4096.Idx) (j : Fin 4096) : idx_main_v2 (ridx_main_v3 (idx_main_v4 i) j) = ix2 (i 0) j :=
  funext fun a => Fin.ext (by match a with | ⟨0, _⟩ => rfl | ⟨1, _⟩ => rfl)

/-- The reference's result is the layer of its three arguments. -/
theorem result_eq_layer (x : (⟨S64x4096, .f32⟩ : BufTy).Contents (Elt Ideal)) (w : (⟨S4096x4096, .f32⟩ : BufTy).Contents (Elt Ideal))
    (mask : (⟨S4096x4096, .i1⟩ : BufTy).Contents (Elt Ideal)) :
    val_main_v4 (F := Ideal) x w mask = layer x w mask := by
  funext i
  rw [val_main_v4_apply, val_main_v3_apply]
  unfold layer
  refine Finset.sum_congr rfl fun j _ => ?_
  rw [val_main_v1_apply, val_main_v0_apply, val_main_v2_apply, weight_index, input_index]
  rfl

end Cert.ReferenceIdeal.Layer

end
-- ==== Proof.KernelBlock.lean ====
/-
  What the kernel body computes from one point's blocks, entry by entry.

  At a grid point the body holds the whole input `x` (64 × 4096), a block of 512 rows of the weight and the same 512
  rows of the mask (already widened to 32-bit words). It masks the weight block — each entry times the 0/1 factor made
  from the mask word by a test against zero — and multiplies `x` by the masked block, contracting the 4096 columns of
  both: entry `(p, q)` of the 64 × 512 result is the sum over `j` of `x[p, j]` times the masked weight `[q, j]`.
  The product starts from a zero accumulator, so at the ideal values it is exactly that sum.
-/
import proofs.«130878_g76295799046852_cont_9to1_m_449_4_alg».proof.Proof.Gen.KernelIdeal.Skeleton
import proofs.«130878_g76295799046852_cont_9to1_m_449_4_alg».proof.Proof.MaskedLinear
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx Cert.MaskedLinear

/-! ## The product's operand indices: both operands are contracted along their columns -/

/-- The left operand's row is the result's row. -/
theorem lhs_row (i : S64x512.Idx) (κ : dot_S64x4096_S512x4096_S64x512_1_1_0_0_n_n.contr.Idx) :
    (dot_S64x4096_S512x4096_S64x512_1_1_0_0_n_n.lhsIdx i κ 0).val = (i 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
/-- The left operand's column is the summation index. -/
theorem lhs_col (i : S64x512.Idx) (κ : dot_S64x4096_S512x4096_S64x512_1_1_0_0_n_n.contr.Idx) :
    (dot_S64x4096_S512x4096_S64x512_1_1_0_0_n_n.lhsIdx i κ 1).val = (κ ⟨0, by decide⟩).val :=
  dot_S64x4096_S512x4096_S64x512_1_1_0_0_n_n.lhsIdx_val_of_single rfl i κ
/-- The right operand's row is the result's column. -/
theorem rhs_row (i : S64x512.Idx) (κ : dot_S64x4096_S512x4096_S64x512_1_1_0_0_n_n.contr.Idx) :
    (dot_S64x4096_S512x4096_S64x512_1_1_0_0_n_n.rhsIdx i κ 0).val = (i 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
/-- The right operand's column is the summation index. -/
theorem rhs_col (i : S64x512.Idx) (κ : dot_S64x4096_S512x4096_S64x512_1_1_0_0_n_n.contr.Idx) :
    (dot_S64x4096_S512x4096_S64x512_1_1_0_0_n_n.rhsIdx i κ 1).val = (κ ⟨0, by decide⟩).val :=
  dot_S64x4096_S512x4096_S64x512_1_1_0_0_n_n.rhsIdx_val_of_single rfl i κ

/-! ## The body's result at an entry -/

/-- Entry `(p, q)` of what the body stores: the sum over `j` of `x[p, j]` times the weight block's `[q, j]` times the
    0/1 factor of the mask word `[q, j]` (the word tested against zero, the test's bit widened and read signed). -/
theorem entry (wb : Vec Ideal S512x4096 .f32) (mb : Vec Ideal S512x4096 .i32) (xb : Vec Ideal S64x4096 .f32)
    (p : Fin 64) (q : Fin 512) :
    k0_pay1 (F := Ideal) wb mb xb (ix2 p q)
      = ∑ j : Fin 4096, xb (ix2 p j)
          * (wb (ix2 q j) * ((((IntOp.cmpi .ne (mb (ix2 q j)) 0#32).setWidth 32).toInt : ℝ) : EReal)) := by
  unfold k0_pay1
  refine (Ideal.matmul_constant_zero_apply _ _ _ _ _).trans ?_
  rw [← Equiv.sum_comp (contrEquiv1 dot_S64x4096_S512x4096_S64x512_1_1_0_0_n_n 4096 rfl rfl).symm]
  refine Finset.sum_congr rfl fun j _ => ?_
  have hj := contrEquiv1_symm_val dot_S64x4096_S512x4096_S64x512_1_1_0_0_n_n 4096 rfl rfl j
  have el : dot_S64x4096_S512x4096_S64x512_1_1_0_0_n_n.lhsIdx (ix2 p q) ((contrEquiv1 dot_S64x4096_S512x4096_S64x512_1_1_0_0_n_n 4096 rfl rfl).symm j) = ix2 p j := funext fun a => Fin.ext (by
    match a with
    | ⟨0, _⟩ => exact lhs_row _ _
    | ⟨1, _⟩ => exact (lhs_col _ _).trans hj)
  have er : dot_S64x4096_S512x4096_S64x512_1_1_0_0_n_n.rhsIdx (ix2 p q) ((contrEquiv1 dot_S64x4096_S512x4096_S64x512_1_1_0_0_n_n 4096 rfl rfl).symm j) = ix2 q j := funext fun a => Fin.ext (by
    match a with
    | ⟨0, _⟩ => exact rhs_row _ _
    | ⟨1, _⟩ => exact (rhs_col _ _).trans hj)
  rw [el, er]
  rfl

end Cert.KernelIdeal.Block

end
-- ==== Proof.KernelWhole.lean ====
/-
  From the kernel's blocks to its whole result array.

  The grid has 8 points. Point `t` reads the whole input, rows `512 t … 512 t + 511` of the weight and of the mask, and
  writes columns `512 t … 512 t + 511` of the result: entry `(p, 512 t + q)` is what the body computes at `(p, q)` of its
  blocks. The mask reaches the kernel widened to 32-bit words; the body's test against zero undoes that, so the 0/1
  factor is the mask bit's own value, and each term of the body's sum is the layer's term with its two factors
  swapped — the same extended real. The 8 column blocks tile the result (column `o` lies in block `o / 512`), so the
  array ends holding the layer of the three arguments.
-/
import proofs.«130878_g76295799046852_cont_9to1_m_449_4_alg».proof.Proof.Gen.KernelIdeal.Value
import proofs.«130878_g76295799046852_cont_9to1_m_449_4_alg».proof.Proof.KernelBlock
import proofs.«130878_g76295799046852_cont_9to1_m_449_4_alg».proof.Proof.MaskedLinear
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.MaskedLinear

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the input's block is always the whole array; the weight's and the
    mask's are row block `t`; the result's is column block `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The mask array the region finds is the mask argument with each bit widened to a 32-bit word. -/
theorem mask_words (c : Dev nD) :
    (V m c main_v0 : S4096x4096.Idx → BitVec 32) = extui 32 (m ((c : Thread nD τ).loc main_arg2)) natLt_1_32 := by
  dsimp only [Gen.V, Gen.hostOps0]
  after_results

/-! ## The three input blocks at a point, as entries of the arguments -/

/-- The input's block is the input. -/
theorem input_block (c : Dev nD) (t : Fin cfg0.N) (y : S64x4096.Idx) :
    (iblk m c 0 t : Vec Ideal S64x4096 .f32) y = (m ((c : Thread nD τ).loc main_arg0) : S64x4096.Idx → EReal) y := by
  obtain ⟨e0, e1, -⟩ := block_indices t
  unfold iblk
  rw [View.read_apply]
  show V m c main_arg0 _ = _
  rw [V_main_arg0]
  congr 1
  funext a
  apply Fin.ext
  match a with
  | ⟨0, _⟩ => show win0_0.index t (0 : Fin 2) * 64 + 1 * (y 0).val = (y 0).val; omega
  | ⟨1, _⟩ => show win0_0.index t (1 : Fin 2) * 4096 + 1 * (y 1).val = (y 1).val; omega

/-- The weight's block at point `t` is rows `512 t …` of the weight. -/
theorem weight_block (c : Dev nD) (t : Fin cfg0.N) (y : S512x4096.Idx) (k : S4096x4096.Idx)
    (h0 : (k 0).val = 512 * t.val + (y 0).val) (h1 : (k 1).val = (y 1).val) :
    (iblk m c 1 t : Vec Ideal S512x4096 .f32) y = (m ((c : Thread nD τ).loc main_arg1) : S4096x4096.Idx → EReal) k := by
  obtain ⟨-, -, e0, e1, -⟩ := block_indices t
  unfold iblk
  rw [View.read_apply]
  show V m c main_arg1 _ = _
  rw [V_main_arg1]
  congr 1
  funext a
  apply Fin.ext
  match a with
  | ⟨0, _⟩ => show win0_1.index t (0 : Fin 2) * 512 + 1 * (y 0).val = (k 0).val; omega
  | ⟨1, _⟩ => show win0_1.index t (1 : Fin 2) * 4096 + 1 * (y 1).val = (k 1).val; omega

/-- The mask's block at point `t` is rows `512 t …` of the mask, each bit widened to a 32-bit word. -/
theorem mask_block (c : Dev nD) (t : Fin cfg0.N) (y : S512x4096.Idx) (k : S4096x4096.Idx)
    (h0 : (k 0).val = 512 * t.val + (y 0).val) (h1 : (k 1).val = (y 1).val) :
    (iblk m c 2 t : Vec Ideal S512x4096 .i32) y
      = ((m ((c : Thread nD τ).loc main_arg2) : S4096x4096.Idx → BitVec 1) k).setWidth 32 := by
  obtain ⟨-, -, -, -, e0, e1, -⟩ := block_indices t
  unfold iblk
  rw [View.read_apply]
  show (V m c main_v0 : S4096x4096.Idx → BitVec 32) _ = _
  rw [mask_words]
  show ((m ((c : Thread nD τ).loc main_arg2) : S4096x4096.Idx → BitVec 1) _).setWidth 32 = _
  congr 2
  funext a
  apply Fin.ext
  match a with
  | ⟨0, _⟩ => show win0_2.index t (0 : Fin 2) * 512 + 1 * (y 0).val = (k 0).val; omega
  | ⟨1, _⟩ => show win0_2.index t (1 : Fin 2) * 4096 + 1 * (y 1).val = (k 1).val; omega

/-! ## What a point writes back is its block of the layer -/

/-- The layer of the three arguments as launched. -/
abbrev result (c : Dev nD) : S64x4096.Idx → EReal :=
  layer (m ((c : Thread nD τ).loc main_arg0)) (m ((c : Thread nD τ).loc main_arg1)) (m ((c : Thread nD τ).loc main_arg2))

/-- Point `t` writes back block `t` of the layer: at `(p, q)` of the block the body's sum over `j` of
    `x[p, j] · (w[512 t + q, j] · factor)` is the layer's sum of `(w[512 t + q, j] · keep) · x[p, j]`, the factor being
    `keep` of the mask bit and the product commutative. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S512x4096) zero_offsets, View.ld_unit_zero (S := S64x4096) zero_offsets]
  obtain ⟨-, -, -, -, -, -, e0, e1⟩ := block_indices t
  funext y
  obtain ⟨p, q, rfl⟩ : ∃ (p : Fin 64) (q : Fin 512), y = ix2 p q := ⟨y 0, y 1, eq_ix2 y⟩
  show k0_pay1 (F := Ideal) (iblk m c 1 t) (iblk m c 2 t) (iblk m c 0 t) (ix2 p q)
    = result m c (((cfg0.win 3).blk t).view.emb (ix2 p q))
  refine (Block.entry (iblk m c 1 t) (iblk m c 2 t) (iblk m c 0 t) p q).trans ?_
  unfold result layer
  refine Finset.sum_congr rfl fun j _ => ?_
  have hrow : ((((cfg0.win 3).blk t).view.emb (ix2 p q)) 0).val = p.val := by
    show win0_3.index t (0 : Fin 2) * 64 + 1 * p.val = p.val; omega
  have hcol : ((((cfg0.win 3).blk t).view.emb (ix2 p q)) 1).val = 512 * t.val + q.val := by
    show win0_3.index t (1 : Fin 2) * 512 + 1 * q.val = 512 * t.val + q.val; omega
  rw [input_block m c t (ix2 p j),
    weight_block m c t (ix2 q j) (ix2 ((((cfg0.win 3).blk t).view.emb (ix2 p q)) 1) j) hcol rfl,
    mask_block m c t (ix2 q j) (ix2 ((((cfg0.win 3).blk t).view.emb (ix2 p q)) 1) j) hcol rfl,
    keep_of_test, mul_comm]
  congr 2
  funext a
  apply Fin.ext
  match a with
  | ⟨0, _⟩ => exact hrow.symm
  | ⟨1, _⟩ => rfl

/-! ## The column blocks tile the result -/

/-- An entry of the result lies in point `t`'s block iff its column is one of the block's 512. -/
theorem mem_block (t : Fin cfg0.N) (i : S64x4096.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v1).slice (win0_3.rect t)).set ↔ _
  rw [View.set_slice_whole, Rect.mem_set_unit]
  exact Iff.rfl

/-- Every entry lies in some point's block: column `o` in block `o / 512`. -/
theorem covered (i : S64x4096.Idx) :
    ∃ t : Fin cfg0.N, (cfg0.win 3).flush t = true ∧ i ∈ ((cfg0.win 3).blk t).view.set := by
  have hi0 : (i 0).val < 64 := (i 0).isLt
  have hi1 : (i 1).val < 4096 := (i 1).isLt
  have hN : grid0.N = 8 := N_0
  let t : Fin cfg0.N := ⟨(i 1).val / 512, by show (i 1).val / 512 < grid0.N; omega⟩
  obtain ⟨-, -, -, -, -, -, e0, e1⟩ := block_indices t
  have ht : t.val = (i 1).val / 512 := rfl
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- So the result array ends holding the layer of the arguments. -/
theorem final (c : Dev nD) : (dats m 0 c).arrAt 3 cfg0.N = result m c :=
  (dats m 0 c).arrAt_eq_of_cover 3 (result m c) (fun t _ => flushed_eq m c t) covered

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Value.run_blocks m ρ)

end Cert.KernelIdeal.Whole

end
-- ==== Proof.lean ====
/-
  A masked linear layer: `out[b, o] = Σ_j x[b, j] · w[o, j] · mask[o, j]` for a 64 × 4096 input, a 4096 × 4096 weight and
  a one-bit mask of the weight's shape.

  The kernel walks the output features in 8 blocks of 512: at each block it masks 512 rows of the weight and multiplies
  the whole input by them, contracting the 4096 input features. The reference masks the whole weight, multiplies it by
  the transposed input and transposes the product. At the ideal values (exact arithmetic on the extended reals) both
  are the same sum at every entry (Proof/MaskedLinear.lean states it once): the reference's terms are
  `(w · keep) · x`, the kernel's `x · (w · keep)`, equal because the product of extended reals is commutative; the
  kernel's 0/1 factor, made by testing the widened mask word against zero, is the mask bit's own value; the order in
  which the blocks and the terms are added plays no part in an exact sum. No finiteness of the inputs is used.

  Proof/ReferenceValue.lean reads the reference's result as that sum, Proof/KernelBlock.lean the kernel body's result at
  one grid point, Proof/KernelWhole.lean lays the 8 column blocks side by side into the whole result. The kernel's
  idealization rewrote nothing, so it is the kernel's own text read at the ideal values.
-/
import proofs.«130878_g76295799046852_cont_9to1_m_449_4_alg».proof.Defs
import proofs.«130878_g76295799046852_cont_9to1_m_449_4_alg».proof.Proof.Gen.Kernel
import proofs.«130878_g76295799046852_cont_9to1_m_449_4_alg».proof.Proof.Gen.Kernel.Skeleton
import proofs.«130878_g76295799046852_cont_9to1_m_449_4_alg».proof.Proof.Gen.Kernel.Launch
import proofs.«130878_g76295799046852_cont_9to1_m_449_4_alg».proof.Proof.Gen.Kernel.Points
import proofs.«130878_g76295799046852_cont_9to1_m_449_4_alg».proof.Proof.Gen.Kernel.Frame
import proofs.«130878_g76295799046852_cont_9to1_m_449_4_alg».proof.Proof.Gen.KernelIdeal
import proofs.«130878_g76295799046852_cont_9to1_m_449_4_alg».proof.Proof.Gen.KernelIdeal.Skeleton
import proofs.«130878_g76295799046852_cont_9to1_m_449_4_alg».proof.Proof.Gen.KernelIdeal.Launch
import proofs.«130878_g76295799046852_cont_9to1_m_449_4_alg».proof.Proof.Gen.KernelIdeal.Points
import proofs.«130878_g76295799046852_cont_9to1_m_449_4_alg».proof.Proof.Gen.KernelIdeal.Frame
import proofs.«130878_g76295799046852_cont_9to1_m_449_4_alg».proof.Proof.Gen.ReferenceIdeal
import proofs.«130878_g76295799046852_cont_9to1_m_449_4_alg».proof.Proof.Gen.Pre_finite_inputs
import proofs.«130878_g76295799046852_cont_9to1_m_449_4_alg».proof.Proof.Gen.KernelIdeal.Value
import proofs.«130878_g76295799046852_cont_9to1_m_449_4_alg».proof.Proof.Gen.ReferenceIdeal.Run
import proofs.«130878_g76295799046852_cont_9to1_m_449_4_alg».proof.Proof.Gen.ReferenceIdeal.Read
import proofs.«130878_g76295799046852_cont_9to1_m_449_4_alg».proof.Proof.MaskedLinear
import proofs.«130878_g76295799046852_cont_9to1_m_449_4_alg».proof.Proof.ReferenceValue
import proofs.«130878_g76295799046852_cont_9to1_m_449_4_alg».proof.Proof.KernelBlock
import proofs.«130878_g76295799046852_cont_9to1_m_449_4_alg».proof.Proof.KernelWhole
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the three arguments, the kernel's result array and the reference's both end holding
    the masked linear layer of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.result_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
